-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x512x128 : Shape := ⟨4, ![16, 16, 512, 128]⟩
abbrev S256 : Shape := ⟨1, ![256]⟩
abbrev S16x16x512 : Shape := ⟨3, ![16, 16, 512]⟩
abbrev S50512x128 : Shape := ⟨2, ![50512, 128]⟩
abbrev S_ : Shape := ⟨0, ![]⟩

class Facts : Prop where
  bcast_S_S16x16x512x128 : S_.BroadcastsInDim S16x16x512x128 (![] : Fin 0 → Fin S16x16x512x128.rank)
  reducesTo_S16x16x512x128_S_d0_1_2_3 : S16x16x512x128.ReducesTo [0, 1, 2, 3] S_
  h_S_ : 0 < S_.numel
  bcast_S_S50512x128 : S_.BroadcastsInDim S50512x128 (![] : Fin 0 → Fin S50512x128.rank)
  reducesTo_S50512x128_S_d0_1 : S50512x128.ReducesTo [0, 1] S_

variable [Facts]

def fn {F : FTy → Type} [FloatOps F] (main_arg0 : FVec F S16x16x512x128 .f32) (main_arg1 : IVec S256 32) (main_arg2 : IVec S16x16x512 32) (main_arg3 : FVec F S50512x128 .f32) : IVec S_ 1 :=
  let main_v0 : FVec F S16x16x512x128 .f32 := Host.absf main_arg0
  let main_cst : FVec F S_ .f32 := constant S_ .f32 0x7F800000#32
  let main_v1 : FVec F S16x16x512x128 .f32 := broadcastInDim S16x16x512x128 ![] bcast_S_S16x16x512x128 main_cst
  let main_v2 : IVec S16x16x512x128 1 := cmpf .olt main_v0 main_v1
  let main_c : IVec S_ 1 := constantI S_ 1 1#1
  let main_v3 : IVec S_ 1 := (fun x v => Host.reduce IntOp.andi x v reducesTo_S16x16x512x128_S_d0_1_2_3 h_S_) main_v2 main_c
  let main_v4 : FVec F S50512x128 .f32 := Host.absf main_arg3
  let main_cst_0 : FVec F S_ .f32 := constant S_ .f32 0x7F800000#32
  let main_v5 : FVec F S50512x128 .f32 := broadcastInDim S50512x128 ![] bcast_S_S50512x128 main_cst_0
  let main_v6 : IVec S50512x128 1 := cmpf .olt main_v4 main_v5
  let main_c_1 : IVec S_ 1 := constantI S_ 1 1#1
  let main_v7 : IVec S_ 1 := (fun x v => Host.reduce IntOp.andi x v reducesTo_S50512x128_S_d0_1 h_S_) main_v6 main_c_1
  let main_v8 : IVec S_ 1 := andi main_v3 main_v7
  main_v8
-- ==== Kernel.lean ====
abbrev S16x16x512x128 : Shape := ⟨4, ![16, 16, 512, 128]⟩
abbrev S256 : Shape := ⟨1, ![256]⟩
abbrev S16x16x512 : Shape := ⟨3, ![16, 16, 512]⟩
abbrev S50512x128 : Shape := ⟨2, ![50512, 128]⟩
abbrev S256x512x128 : Shape := ⟨3, ![256, 512, 128]⟩
abbrev S256x512 : Shape := ⟨2, ![256, 512]⟩
abbrev S_ : Shape := ⟨0, ![]⟩
abbrev S256x1 : Shape := ⟨2, ![256, 1]⟩
abbrev S512x128 : Shape := ⟨2, ![512, 128]⟩
abbrev S256x512x1 : Shape := ⟨3, ![256, 512, 1]⟩
abbrev S1x512x128 : Shape := ⟨3, ![1, 512, 128]⟩
abbrev S256x512x256 : Shape := ⟨3, ![256, 512, 256]⟩
abbrev S16x512x128 : Shape := ⟨3, ![16, 512, 128]⟩
abbrev S16x512x256 : Shape := ⟨3, ![16, 512, 256]⟩

abbrev nBuf : Space → Nat
  | .hbm => 54
  | .vmem => 6
  | .smem => 0
  | _ => 0

abbrev bufTy : (tb : Table) → Fin (tcTables nBuf tb) → BufTy
  | .hbm, ⟨0, _⟩ => ⟨S16x16x512x128, .f32⟩
  | .hbm, ⟨1, _⟩ => ⟨S256, .i32⟩
  | .hbm, ⟨2, _⟩ => ⟨S16x16x512, .i32⟩
  | .hbm, ⟨3, _⟩ => ⟨S50512x128, .f32⟩
  | .hbm, ⟨4, _⟩ => ⟨S256x512x128, .f32⟩
  | .hbm, ⟨5, _⟩ => ⟨S256x512, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S512x128, .f32⟩
  | .hbm, ⟨23, _⟩ => ⟨S_, .i32⟩
  | .hbm, ⟨24, _⟩ => ⟨S256x512, .i32⟩
  | .hbm, ⟨25, _⟩ => ⟨S256x512, .i1⟩
  | .hbm, ⟨26, _⟩ => ⟨S_, .i32⟩
  | .hbm, ⟨27, _⟩ => ⟨S256x512, .i32⟩
  | .hbm, ⟨28, _⟩ => ⟨S256x512, .i32⟩
  | .hbm, ⟨29, _⟩ => ⟨S256x512, .i32⟩
  | .hbm, ⟨30, _⟩ => ⟨S256x512x1, .i32⟩
  | .hbm, ⟨31, _⟩ => ⟨S256x512x128, .f32⟩
  | .hbm, ⟨32, _⟩ => ⟨S1x512x128, .f32⟩
  | .hbm, ⟨33, _⟩ => ⟨S256x512x128, .f32⟩
  | .hbm, ⟨34, _⟩ => ⟨S256x512x128, .f32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S_, .i32⟩
  | .hbm, ⟨39, _⟩ => ⟨S256, .i32⟩
  | .hbm, ⟨40, _⟩ => ⟨S256, .i32⟩
  | .hbm, ⟨41, _⟩ => ⟨S256, .i32⟩
  | .hbm, ⟨42, _⟩ => ⟨S256x1, .i32⟩
  | .hbm, ⟨43, _⟩ => ⟨S256x512x128, .f32⟩
  | .hbm, ⟨44, _⟩ => ⟨S_, .i32⟩
  | .hbm, ⟨45, _⟩ => ⟨S256, .i32⟩
  | .hbm, ⟨46, _⟩ => ⟨S256, .i1⟩
  | .hbm, ⟨47, _⟩ => ⟨S_, .i32⟩
  | .hbm, ⟨48, _⟩ => ⟨S256, .i32⟩
  | .hbm, ⟨49, _⟩ => ⟨S256, .i32⟩
  | .hbm, ⟨50, _⟩ => ⟨S256, .i32⟩
  | .hbm, ⟨51, _⟩ => ⟨S256x1, .i32⟩
  | .hbm, ⟨52, _⟩ => ⟨S256x512x128, .f32⟩
  | .hbm, ⟨53, _⟩ => ⟨S256x512x256, .f32⟩
  | .local _ .vmem, ⟨0, _⟩ => ⟨S16x512x128, .f32⟩
  | .local _ .vmem, ⟨1, _⟩ => ⟨S16x512x128, .f32⟩
  | .local _ .vmem, ⟨2, _⟩ => ⟨S16x512x128, .f32⟩
  | .local _ .vmem, ⟨3, _⟩ => ⟨S16x512x128, .f32⟩
  | .local _ .vmem, ⟨4, _⟩ => ⟨S16x512x256, .f32⟩
  | .local _ .vmem, ⟨5, _⟩ => ⟨S16x512x256, .f32⟩
  | _, _ => ⟨S16x16x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1_0 : Ref sig .tc := ⟨.hbm, 8, rfl⟩
abbrev main_v3 : Ref sig .tc := ⟨.hbm, 9, rfl⟩
abbrev main_call1_v0 : Ref sig .tc := ⟨.hbm, 10, rfl⟩
abbrev main_call1_v1_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x16x512x128_S256x512x128 : S16x16x512x128.ShapeCasts S256x512x128
  shapeCasts_S16x16x512_S256x512 : S16x16x512.ShapeCasts S256x512
  bcast_S_S256 : S_.BroadcastsInDim S256 (![] : Fin 0 → Fin S256.rank)
  bcast_S256_S256x1_0 : S256.BroadcastsInDim S256x1 (![0] : Fin 1 → Fin S256x1.rank)
  slices_S50512x128_S512x128_50000_0 : S50512x128.Slices ![50000, 0] S512x128
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S512x128_S1x512x128_1_2 : S512x128.BroadcastsInDim S1x512x128 (![1, 2] : Fin 2 → Fin S1x512x128.rank)
  bcast_S1x512x128_S256x512x128_0_1_2 : S1x512x128.BroadcastsInDim S256x512x128 (![0, 1, 2] : Fin 3 → Fin S256x512x128.rank)
  inb_S16x512x128_S16x512x128_0_0_0 : ∀ a, (![0, 0, 0] : Fin 3 → Nat) a + S16x512x128.size a ≤ S16x512x128.size a
  h_S16x512x128 : 0 < S16x512x128.numel
  shapeCasts_S16x512x128_S16x512x128 : S16x512x128.ShapeCasts S16x512x128
  inb_S16x512x256_S16x512x128_0_0_0 : ∀ a, (![0, 0, 0] : Fin 3 → Nat) a + S16x512x128.size a ≤ S16x512x256.size a
  inb_S16x512x256_S16x512x128_0_0_128 : ∀ a, (![0, 0, 128] : Fin 3 → Nat) a + S16x512x128.size a ≤ S16x512x256.size a
  gather_S256_S256x1_S256_n_0_n_n_0_1_1_wf : GatherDims.WF S256 S256x1 S256 [] [0] [] [0] [] 1 ![1]
  gather_S50512x128_S256x512x1_S256x512x128_2_0_n_n_0_2_1128_wf : GatherDims.WF S50512x128 S256x512x1 S256x512x128 [2] [0] [] [0] [] 2 ![1, 128]
  gather_S256x512x128_S256x1_S256x512x128_12_0_n_n_0_1_1512128_wf : GatherDims.WF S256x512x128 S256x1 S256x512x128 [1, 2] [0] [] [0] [] 1 ![1, 512, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x128.size a ≤ S256x512x128.size a
  hwx0_0 : ∀ i : grid0.Coords, EltTy.bits .f32 = 32 ∨ (Rect.block (s := S256x512x128) S16x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512x128.size a ≤ S256x512x128.size a
  hwx0_1 : ∀ i : grid0.Coords, EltTy.bits .f32 = 32 ∨ (Rect.block (s := S256x512x128) S16x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512x256.size a ≤ S256x512x256.size a
  hwx0_2 : ∀ i : grid0.Coords, EltTy.bits .f32 = 32 ∨ (Rect.block (s := S256x512x256) S16x512x256.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def gather_S50512x128_S256x512x1_S256x512x128_2_0_n_n_0_2_1128 : GatherDims S50512x128 S256x512x1 S256x512x128 where
  offsetDims := [2]
  collapsedSliceDims := [0]
  operandBatchingDims := []
  startIndicesBatchingDims := []
  startIndexMap := [0]
  indexVectorDim := 2
  sliceSizes := ![1, 128]
  wf := gather_S50512x128_S256x512x1_S256x512x128_2_0_n_n_0_2_1128_wf
def gather_S256x512x128_S256x1_S256x512x128_12_0_n_n_0_1_1512128 : GatherDims S256x512x128 S256x1 S256x512x128 where
  offsetDims := [1, 2]
  collapsedSliceDims := [0]
  operandBatchingDims := []
  startIndicesBatchingDims := []
  startIndexMap := [0]
  indexVectorDim := 1
  sliceSizes := ![1, 512, 128]
  wf := gather_S256x512x128_S256x1_S256x512x128_12_0_n_n_0_1_1512128_wf

abbrev win0_0 : Pipeline.Window sig grid0 :=
  Pipeline.Window.ofSpec (Memref.whole main_v29) S16x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S16x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S16x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x16x512x128 : Shape := ⟨4, ![16, 16, 512, 128]⟩
abbrev S256 : Shape := ⟨1, ![256]⟩
abbrev S16x16x512 : Shape := ⟨3, ![16, 16, 512]⟩
abbrev S50512x128 : Shape := ⟨2, ![50512, 128]⟩
abbrev S256x512x128 : Shape := ⟨3, ![256, 512, 128]⟩
abbrev S256x512 : Shape := ⟨2, ![256, 512]⟩
abbrev S_ : Shape := ⟨0, ![]⟩
abbrev S256x1 : Shape := ⟨2, ![256, 1]⟩
abbrev S512 : Shape := ⟨1, ![512]⟩
abbrev S256x512x1 : Shape := ⟨3, ![256, 512, 1]⟩
abbrev S512x1 : Shape := ⟨2, ![512, 1]⟩
abbrev S512x128 : Shape := ⟨2, ![512, 128]⟩
abbrev S1x512x128 : Shape := ⟨3, ![1, 512, 128]⟩
abbrev S256x512x256 : Shape := ⟨3, ![256, 512, 256]⟩

abbrev nBuf : Space → Nat
  | .hbm => 57
  | .vmem => 0
  | .smem => 0
  | _ => 0

abbrev bufTy : (tb : Table) → Fin (tcTables nBuf tb) → BufTy
  | .hbm, ⟨0, _⟩ => ⟨S16x16x512x128, .f32⟩
  | .hbm, ⟨1, _⟩ => ⟨S256, .i32⟩
  | .hbm, ⟨2, _⟩ => ⟨S16x16x512, .i32⟩
  | .hbm, ⟨3, _⟩ => ⟨S50512x128, .f32⟩
  | .hbm, ⟨4, _⟩ => ⟨S256x512x128, .f32⟩
  | .hbm, ⟨5, _⟩ => ⟨S256x512, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S256x512, .i32⟩
  | .hbm, ⟨28, _⟩ => ⟨S256x512, .i1⟩
  | .hbm, ⟨29, _⟩ => ⟨S_, .i32⟩
  | .hbm, ⟨30, _⟩ => ⟨S256x512, .i32⟩
  | .hbm, ⟨31, _⟩ => ⟨S256x512, .i32⟩
  | .hbm, ⟨32, _⟩ => ⟨S256x512, .i32⟩
  | .hbm, ⟨33, _⟩ => ⟨S256x512x1, .i32⟩
  | .hbm, ⟨34, _⟩ => ⟨S256x512x128, .f32⟩
  | .hbm, ⟨35, _⟩ => ⟨S_, .i32⟩
  | .hbm, ⟨36, _⟩ => ⟨S512, .i32⟩
  | .hbm, ⟨37, _⟩ => ⟨S512, .i1⟩
  | .hbm, ⟨38, _⟩ => ⟨S_, .i32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S512x1, .i32⟩
  | .hbm, ⟨43, _⟩ => ⟨S512x128, .f32⟩
  | .hbm, ⟨44, _⟩ => ⟨S1x512x128, .f32⟩
  | .hbm, ⟨45, _⟩ => ⟨S256x512x128, .f32⟩
  | .hbm, ⟨46, _⟩ => ⟨S256x512x128, .f32⟩
  | .hbm, ⟨47, _⟩ => ⟨S256x512x256, .f32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S256x512x256, .f32⟩
  | _, _ => ⟨S16x16x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1_0 : Ref sig .tc := ⟨.hbm, 8, rfl⟩
abbrev main_v3 : Ref sig .tc := ⟨.hbm, 9, rfl⟩
abbrev main_call1_v0 : Ref sig .tc := ⟨.hbm, 10, rfl⟩
abbrev main_call1_v1_0 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  shapeCasts_S16x16x512x128_S256x512x128 : S16x16x512x128.ShapeCasts S256x512x128
  shapeCasts_S16x16x512_S256x512 : S16x16x512.ShapeCasts S256x512
  bcast_S_S256 : S_.BroadcastsInDim S256 (![] : Fin 0 → Fin S256.rank)
  bcast_S256_S256x1_0 : S256.BroadcastsInDim S256x1 (![0] : Fin 1 → Fin S256x1.rank)
  bcast_S_S512 : S_.BroadcastsInDim S512 (![] : Fin 0 → Fin S512.rank)
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S512_S512x1_0 : S512.BroadcastsInDim S512x1 (![0] : Fin 1 → Fin S512x1.rank)
  bcast_S512x128_S1x512x128_1_2 : S512x128.BroadcastsInDim S1x512x128 (![1, 2] : Fin 2 → Fin S1x512x128.rank)
  bcast_S1x512x128_S256x512x128_0_1_2 : S1x512x128.BroadcastsInDim S256x512x128 (![0, 1, 2] : Fin 3 → Fin S256x512x128.rank)
  concatenates_S256x512x128_S256x512x128_S256x512x256_d2 : Shape.Concatenates [S256x512x128, S256x512x128] S256x512x256 2
  gather_S256_S256x1_S256_n_0_n_n_0_1_1_wf : GatherDims.WF S256 S256x1 S256 [] [0] [] [0] [] 1 ![1]
  gather_S50512x128_S256x512x1_S256x512x128_2_0_n_n_0_2_1128_wf : GatherDims.WF S50512x128 S256x512x1 S256x512x128 [2] [0] [] [0] [] 2 ![1, 128]
  gather_S50512x128_S512x1_S512x128_1_0_n_n_0_1_1128_wf : GatherDims.WF S50512x128 S512x1 S512x128 [1] [0] [] [0] [] 1 ![1, 128]
  gather_S256x512x256_S256x1_S256x512x256_12_0_n_n_0_1_1512256_wf : GatherDims.WF S256x512x256 S256x1 S256x512x256 [1, 2] [0] [] [0] [] 1 ![1, 512, 256]

variable [Facts₀]

def comparator_i32_i32_d0 : BitVec 32 × BitVec 32 → BitVec 32 × BitVec 32 → BitVec 1 :=
  fun l r =>
    let v2 := IntOp.cmpi .slt l.1 r.1
    v2
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def gather_S50512x128_S256x512x1_S256x512x128_2_0_n_n_0_2_1128 : GatherDims S50512x128 S256x512x1 S256x512x128 where
  offsetDims := [2]
  collapsedSliceDims := [0]
  operandBatchingDims := []
  startIndicesBatchingDims := []
  startIndexMap := [0]
  indexVectorDim := 2
  sliceSizes := ![1, 128]
  wf := gather_S50512x128_S256x512x1_S256x512x128_2_0_n_n_0_2_1128_wf
def gather_S50512x128_S512x1_S512x128_1_0_n_n_0_1_1128 : GatherDims S50512x128 S512x1 S512x128 where
  offsetDims := [1]
  collapsedSliceDims := [0]
  operandBatchingDims := []
  startIndicesBatchingDims := []
  startIndexMap := [0]
  indexVectorDim := 1
  sliceSizes := ![1, 128]
  wf := gather_S50512x128_S512x1_S512x128_1_0_n_n_0_1_1128_wf
def gather_S256x512x256_S256x1_S256x512x256_12_0_n_n_0_1_1512256 : GatherDims S256x512x256 S256x1 S256x512x256 where
  offsetDims := [1, 2]
  collapsedSliceDims := [0]
  operandBatchingDims := []
  startIndicesBatchingDims := []
  startIndexMap := [0]
  indexVectorDim := 1
  sliceSizes := ![1, 512, 256]
  wf := gather_S256x512x256_S256x1_S256x512x256_12_0_n_n_0_1_1512256_wf

class Facts : Prop extends Facts₀ where

variable [Facts]
-- ==== Proof.KernelHost.lean ====
/-
  What the region finds in the two arrays it stages, and what the program's two integer results hold, as terms of the
  argument arrays: the host operations before the one region, read back.

  `order len` is the descending stable argsort of the lengths (the ascending stable sort of their negations, carrying
  positions); `startCol len` is that order as a column of start indices, a negative word wrapped by the 256 rows (jnp's
  index normalization). The first staged array is the rows of `matrix`, flattened to [256, 512, 128], picked by the start
  column; the second is the rows of `emb[core_terms] + emb[50000 : 50512]` picked by the same column. The sorted
  lengths are `length` at the start column, and the inverse permutation is the argsort of the order.
-/
import proofs.«423332_j65214783422482_3_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Positions `0 … 255` ordered by descending length, ties in position order. -/
def order (len : IVec S256 32) : IVec S256 32 :=
  (Host.sort2 S256 0 comparator_i32_i32_d0 (negi len) (iotaInDim S256 32 0)).2

/-- The order as a column of row indices, a negative word wrapped by the 256 rows. -/
def startCol (len : IVec S256 32) : IVec S256x1 32 :=
  broadcastInDim S256x1 ![0] bcast_S256_S256x1_0
    (select (cmpi .slt (order len) (broadcastInDim S256 ![] bcast_S_S256 (constantI S_ 32 0#32)))
      (addi (order len) (broadcastInDim S256 ![] bcast_S_S256 (constantI S_ 32 256#32))) (order len))

/-- The token ids, flattened to [256, 512], as a column of table rows, a negative id wrapped by the 50512 rows. -/
def tokCol (ct : IVec S16x16x512 32) : IVec S256x512x1 32 :=
  broadcastInDim S256x512x1 ![0, 1] bcast_S256x512_S256x512x1_0_1
    (select (cmpi .slt (shapeCast _ ct shapeCasts_S16x16x512_S256x512) (broadcastInDim S256x512 ![] bcast_S_S256x512 (constantI S_ 32 0#32)))
      (addi (shapeCast _ ct shapeCasts_S16x16x512_S256x512) (broadcastInDim S256x512 ![] bcast_S_S256x512 (constantI S_ 32 50512#32)))
      (shapeCast _ ct shapeCasts_S16x16x512_S256x512))

/-- Token embedding plus position embedding, [256, 512, 128]: `emb[ct] + emb[50000 : 50512]` broadcast over the rows. -/
def tokVec (emb : FVec F S50512x128 .f32) (ct : IVec S16x16x512 32) : FVec F S256x512x128 .f32 :=
  addf (Host.gather gather_S50512x128_S256x512x1_S256x512x128_2_0_n_n_0_2_1128 emb (tokCol ct))
    (broadcastInDim S256x512x128 ![0, 1, 2] bcast_S1x512x128_S256x512x128_0_1_2
      (broadcastInDim S1x512x128 ![1, 2] bcast_S512x128_S1x512x128_1_2
        (extractStridedSlice S512x128 ![50000, 0] emb slices_S50512x128_S512x128_50000_0)))

variable (m : (ℓ : Loc nD τ sig) → Buf (Elt F) ℓ)

set_option maxRecDepth 8192 in
set_option maxHeartbeats 2000000 in
/-- The first staged array: rows of the flattened `matrix` at the start column. -/
theorem V_main_v29 (c : Dev nD) : (V m c main_v29 : S256x512x128.Idx → Elt F .f32)
    = Host.gather gather_S256x512x128_S256x1_S256x512x128_12_0_n_n_0_1_1512128
        (shapeCast _ (m ((c : Thread nD τ).loc main_arg0)) shapeCasts_S16x16x512x128_S256x512x128)
        (startCol (m ((c : Thread nD τ).loc main_arg1))) := by
  dsimp only [V]
  simp only [hostOps0, hostOps0_1, hostOps0_2, hostOps0_3, List.flatten_cons, List.flatten_nil, List.append_nil,
    List.cons_append, List.nil_append]
  after_results_simp <;> rfl

set_option maxRecDepth 8192 in
set_option maxHeartbeats 2000000 in
/-- The second staged array: rows of token embedding plus position embedding at the start column. -/
theorem V_main_v36 (c : Dev nD) : (V m c main_v36 : S256x512x128.Idx → Elt F .f32)
    = Host.gather gather_S256x512x128_S256x1_S256x512x128_12_0_n_n_0_1_1512128
        (tokVec (m ((c : Thread nD τ).loc main_arg3)) (m ((c : Thread nD τ).loc main_arg2)))
        (startCol (m ((c : Thread nD τ).loc main_arg1))) := by
  dsimp only [V]
  simp only [hostOps0, hostOps0_1, hostOps0_2, hostOps0_3, List.flatten_cons, List.flatten_nil, List.append_nil,
    List.cons_append, List.nil_append]
  after_results_simp <;> rfl

set_option maxRecDepth 8192 in
set_option maxHeartbeats 2000000 in
/-- The sorted lengths: `length` at the start column. -/
theorem V_main_v11 (c : Dev nD) : (V m c main_v11 : S256.Idx → Elt F .i32)
    = Host.gather gather_S256_S256x1_S256_n_0_n_n_0_1_1 (m ((c : Thread nD τ).loc main_arg1))
        (startCol (m ((c : Thread nD τ).loc main_arg1))) := by
  dsimp only [V]
  simp only [hostOps0, hostOps0_1, hostOps0_2, hostOps0_3, List.flatten_cons, List.flatten_nil, List.append_nil,
    List.cons_append, List.nil_append]
  after_results_simp <;> rfl

set_option maxRecDepth 8192 in
set_option maxHeartbeats 2000000 in
/-- The inverse permutation: the argsort of the order. -/
theorem V_main_v4 (c : Dev nD) : (V m c main_v4 : S256.Idx → Elt F .i32)
    = (Host.sort2 S256 0 comparator_i32_i32_d0 (order (m ((c : Thread nD τ).loc main_arg1))) (iotaInDim S256 32 0)).2 := by
  dsimp only [V]
  simp only [hostOps0, hostOps0_1, hostOps0_2, hostOps0_3, List.flatten_cons, List.flatten_nil, List.append_nil,
    List.cons_append, List.nil_append]
  after_results_simp <;> rfl

end Cert.KernelIdeal.HostValue

end
-- ==== Proof.KernelBlocks.lean ====
/-
  The region's output array: the two staged arrays side by side along the last axis.

  At each of the 16 grid points the body copies its first input block into lanes 0 … 127 of the output block and its second
  into lanes 128 … 255, so the output block is the two input blocks joined along the last axis. Point `t`'s blocks are rows
  `16 t … 16 t + 15` of their arrays (whole in the other two axes), and joining along the last axis does not touch rows: the
  block of the joined arrays is the join of the blocks. The 16 row blocks tile the 256 rows, so after the run the output
  array is the join of the two staged arrays.
-/
import proofs.«423332_j65214783422482_3_alg».proof.Proof.Gen.KernelIdeal.Value
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

theorem hz : (![0, 0, 0] : Fin 3 → Nat) = fun _ => 0 := funext fun a => by fin_cases a <;> rfl

/-- Two [16, 512, 128] blocks join along the last axis into a [16, 512, 256] block; likewise the whole arrays. -/
theorem joinBlk : Shape.Concatenates [S16x512x128, S16x512x128] S16x512x256 2 := by decide
theorem joinArr : Shape.Concatenates [S256x512x128, S256x512x128] S256x512x256 2 := by decide

/-! ## The body -/

/-- The body's two stores — the first input block through lanes 0 … 127, the second through lanes 128 … 255 — leave the
    two blocks joined along the last axis: each store's payload is the piece of the join its rectangle names. -/
theorem out_eq_join (x0 x1 : Vec F S16x512x128 .f32) :
    out0_2 x0 x1 = concatenate S16x512x256 2 [⟨S16x512x128, x0⟩, ⟨S16x512x128, x1⟩] joinBlk := by
  unfold out0_2
  funext y
  refine View.canon_apply_of_pieces (concatenate S16x512x256 2 [⟨S16x512x128, x0⟩, ⟨S16x512x128, x1⟩] joinBlk) _ ?_ y (cover0_2 _ _ y)
  intro p hp x
  rcases List.mem_cons.mp hp with rfl | hp
  · -- lanes 128 … 255: the second block, shifted by 128 on the last axis
    show k0_pay2 (View.ld x1 r0_0) x = _
    unfold k0_pay2
    rw [shapeCast_self, View.ld_unit_zero (S := S16x512x128) hz]
    exact (concatenate_pair_apply_right (2 : Fin 3) x0 x1 joinBlk (r0_2.emb x) rfl rfl x
      (fun b hb => match b, hb with
        | ⟨0, _⟩, _ => by show (x 0).val = 0 + 1 * (x 0).val; omega
        | ⟨1, _⟩, _ => by show (x 1).val = 0 + 1 * (x 1).val; omega
        | ⟨2, _⟩, hb => absurd rfl hb)
      (by show (x 2).val + 128 = 128 + 1 * (x 2).val; omega)).symm
  · obtain rfl := List.mem_singleton.mp hp
    -- lanes 0 … 127: the first block in place
    show k0_pay1 (View.ld x0 r0_0) x = _
    unfold k0_pay1
    rw [shapeCast_self, View.ld_unit_zero (S := S16x512x128) hz]
    exact (concatenate_pair_apply_left (2 : Fin 3) x0 x1 joinBlk (r0_1.emb x) rfl x
      (fun b => match b with
        | ⟨0, _⟩ => by show (x 0).val = 0 + 1 * (x 0).val; omega
        | ⟨1, _⟩ => by show (x 1).val = 0 + 1 * (x 1).val; omega
        | ⟨2, _⟩ => by show (x 2).val = 0 + 1 * (x 2).val; omega)).symm

/-! ## A row block of a join is the join of the row blocks -/

/-- Pure index arithmetic: if `b0`, `b1` are the blocks of rows `16 T …` of `X0`, `X1`, then at a block index `y` sitting
    at array index `E` (rows shifted by `16 T`, the other axes in place) the join of the blocks is the join of the arrays. -/
theorem join_rows {α : Type} (X0 X1 : S256x512x128.Idx → α) (b0 b1 : S16x512x128.Idx → α) (T : Nat)
    (hb0 : ∀ (y : S16x512x128.Idx) (k : S256x512x128.Idx), (k 0).val = 16 * T + (y 0).val → (k 1).val = (y 1).val →
      (k 2).val = (y 2).val → b0 y = X0 k)
    (hb1 : ∀ (y : S16x512x128.Idx) (k : S256x512x128.Idx), (k 0).val = 16 * T + (y 0).val → (k 1).val = (y 1).val →
      (k 2).val = (y 2).val → b1 y = X1 k)
    (y : S16x512x256.Idx) (E : S256x512x256.Idx)
    (hE0 : (E 0).val = 16 * T + (y 0).val) (hE1 : (E 1).val = (y 1).val) (hE2 : (E 2).val = (y 2).val) :
    concatenate S16x512x256 2 [⟨S16x512x128, b0⟩, ⟨S16x512x128, b1⟩] joinBlk y
      = concatenate S256x512x256 2 [⟨S256x512x128, X0⟩, ⟨S256x512x128, X1⟩] joinArr E := by
  have hy0 : (y 0).val < 16 := (y 0).isLt
  have hy1 : (y 1).val < 512 := (y 1).isLt
  have hy2 : (y 2).val < 256 := (y 2).isLt
  have hk0 : (E 0).val < 256 := (E 0).isLt
  have hk1 : (E 1).val < 512 := (E 1).isLt
  by_cases h : (y 2).val < 128
  · rw [concatenate_pair_apply_left (2 : Fin 3) b0 b1 joinBlk y rfl (ix3 ⟨(y 0).val, hy0⟩ ⟨(y 1).val, hy1⟩ ⟨(y 2).val, h⟩)
        (fun b => match b with | ⟨0, _⟩ => rfl | ⟨1, _⟩ => rfl | ⟨2, _⟩ => rfl),
      concatenate_pair_apply_left (2 : Fin 3) X0 X1 joinArr E rfl
        (ix3 ⟨(E 0).val, hk0⟩ ⟨(E 1).val, hk1⟩ ⟨(E 2).val, by omega⟩)
        (fun b => match b with | ⟨0, _⟩ => rfl | ⟨1, _⟩ => rfl | ⟨2, _⟩ => rfl)]
    exact hb0 _ _ hE0 hE1 hE2
  · have h' : (y 2).val - 128 < 128 := by omega
    rw [concatenate_pair_apply_right (2 : Fin 3) b0 b1 joinBlk y rfl rfl
        (ix3 ⟨(y 0).val, hy0⟩ ⟨(y 1).val, hy1⟩ ⟨(y 2).val - 128, h'⟩)
        (fun b hb => match b, hb with | ⟨0, _⟩, _ => rfl | ⟨1, _⟩, _ => rfl | ⟨2, _⟩, hb => absurd rfl hb)
        (by show (y 2).val - 128 + 128 = (y 2).val; omega),
      concatenate_pair_apply_right (2 : Fin 3) X0 X1 joinArr E rfl rfl
        (ix3 ⟨(E 0).val, hk0⟩ ⟨(E 1).val, hk1⟩ ⟨(E 2).val - 128, by omega⟩)
        (fun b hb => match b, hb with | ⟨0, _⟩, _ => rfl | ⟨1, _⟩, _ => rfl | ⟨2, _⟩, hb => absurd rfl hb)
        (by show (E 2).val - 128 + 128 = (E 2).val; omega)]
    exact hb1 _ _ hE0 hE1 (by show (E 2).val - 128 = (y 2).val - 128; omega)

/-! ## The grid -/

variable (m : (ℓ : Loc nD τ sig) → Buf (Elt F) ℓ)

/-- The three index maps over the 16 points: block `t` of the rows, block 0 of the other two axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first input window's block at point `t` is rows `16 t …` of the first staged array. -/
theorem iblk0_apply (c : Dev nD) (t : Fin cfg0.N) (y : S16x512x128.Idx) (k : S256x512x128.Idx)
    (h0 : (k 0).val = 16 * t.val + (y 0).val) (h1 : (k 1).val = (y 1).val) (h2 : (k 2).val = (y 2).val) :
    (iblk m c 0 t : Vec F S16x512x128 .f32) y = (V m c main_v29 : S256x512x128.Idx → Elt F .f32) k := by
  obtain ⟨e0, e1, e2, -⟩ := idx_facts t
  unfold iblk
  rw [View.read_apply]
  show (V m c main_v29 : S256x512x128.Idx → Elt F .f32) _ = _
  refine congrArg (V m c main_v29 : S256x512x128.Idx → Elt F .f32) ?_
  funext a
  apply Fin.ext
  match a with
  | ⟨0, _⟩ => show win0_0.index t (0 : Fin 3) * 16 + 1 * (y 0).val = (k 0).val; rw [e0, h0]; omega
  | ⟨1, _⟩ => show win0_0.index t (1 : Fin 3) * 512 + 1 * (y 1).val = (k 1).val; rw [e1, h1]; omega
  | ⟨2, _⟩ => show win0_0.index t (2 : Fin 3) * 128 + 1 * (y 2).val = (k 2).val; rw [e2, h2]; omega

/-- The second input window's block at point `t` is rows `16 t …` of the second staged array. -/
theorem iblk1_apply (c : Dev nD) (t : Fin cfg0.N) (y : S16x512x128.Idx) (k : S256x512x128.Idx)
    (h0 : (k 0).val = 16 * t.val + (y 0).val) (h1 : (k 1).val = (y 1).val) (h2 : (k 2).val = (y 2).val) :
    (iblk m c 1 t : Vec F S16x512x128 .f32) y = (V m c main_v36 : S256x512x128.Idx → Elt F .f32) k := by
  obtain ⟨-, -, -, e0, e1, e2, -⟩ := idx_facts t
  unfold iblk
  rw [View.read_apply]
  show (V m c main_v36 : S256x512x128.Idx → Elt F .f32) _ = _
  refine congrArg (V m c main_v36 : S256x512x128.Idx → Elt F .f32) ?_
  funext a
  apply Fin.ext
  match a with
  | ⟨0, _⟩ => show win0_1.index t (0 : Fin 3) * 16 + 1 * (y 0).val = (k 0).val; rw [e0, h0]; omega
  | ⟨1, _⟩ => show win0_1.index t (1 : Fin 3) * 512 + 1 * (y 1).val = (k 1).val; rw [e1, h1]; omega
  | ⟨2, _⟩ => show win0_1.index t (2 : Fin 3) * 128 + 1 * (y 2).val = (k 2).val; rw [e2, h2]; omega

/-- The two staged arrays joined along the last axis: what the output array ends holding. -/
abbrev joined (c : Dev nD) : S256x512x256.Idx → Elt F .f32 :=
  concatenate S256x512x256 2 [⟨S256x512x128, (V m c main_v29 : S256x512x128.Idx → Elt F .f32)⟩,
    ⟨S256x512x128, (V m c main_v36 : S256x512x128.Idx → Elt F .f32)⟩] joinArr

/-- What point `t` writes back is block `t` of the joined arrays. -/
theorem flushed_eq (c : Dev nD) (t : Fin cfg0.N) :
    (dats m 0 c).flushed 2 t = ((cfg0.win 2).blk t).view.read (Elt F) (joined m c) := by
  obtain ⟨-, -, -, -, -, -, e0, e1, e2⟩ := idx_facts t
  rw [Value.flushed2, out_eq_join]
  funext y
  show concatenate S16x512x256 2 [⟨S16x512x128, (iblk m c 0 t : Vec F S16x512x128 .f32)⟩,
      ⟨S16x512x128, (iblk m c 1 t : Vec F S16x512x128 .f32)⟩] joinBlk y
    = joined m c (((cfg0.win 2).blk t).view.emb y)
  refine join_rows _ _ _ _ t.val (iblk0_apply m c t) (iblk1_apply m c t) y _ ?_ ?_ ?_
  · show win0_2.index t (0 : Fin 3) * 16 + 1 * (y 0).val = 16 * t.val + (y 0).val; rw [e0]; omega
  · show win0_2.index t (1 : Fin 3) * 512 + 1 * (y 1).val = (y 1).val; rw [e1]; omega
  · show win0_2.index t (2 : Fin 3) * 256 + 1 * (y 2).val = (y 2).val; rw [e2]; omega

/-- An index of the array is in point `t`'s block iff each coordinate is in the block's range on its axis. -/
theorem mem_blk (t : Fin cfg0.N) (i : S256x512x256.Idx) :
    i ∈ ((cfg0.win 2).blk t).view.set ↔ ∀ a : Fin 3, win0_2.index t a * S16x512x256.size a ≤ (i a).val
      ∧ (i a).val < win0_2.index t a * S16x512x256.size a + S16x512x256.size a := by
  show i ∈ ((View.whole main_v37).slice (win0_2.rect t)).set ↔ _
  rw [View.set_slice_whole, Rect.mem_set_unit]
  exact Iff.rfl

/-- Every index lies in the block of the point its row falls in: point `i₀ / 16`. -/
theorem cover (i : S256x512x256.Idx) :
    ∃ t : Fin cfg0.N, (cfg0.win 2).flush t = true ∧ i ∈ ((cfg0.win 2).blk t).view.set := by
  have hi0 : (i 0).val < 256 := (i 0).isLt
  have hi1 : (i 1).val < 512 := (i 1).isLt
  have hi2 : (i 2).val < 256 := (i 2).isLt
  have hN : cfg0.N = 16 := N_0
  let t : Fin cfg0.N := ⟨(i 0).val / 16, by rw [hN]; omega⟩
  obtain ⟨-, -, -, -, -, -, e0, e1, e2⟩ := idx_facts t
  have ht : t.val = (i 0).val / 16 := rfl
  refine ⟨t, flush0_2 t, ?_⟩
  rw [mem_blk]
  intro a
  match a with
  | ⟨0, _⟩ => show win0_2.index t (0 : Fin 3) * 16 ≤ (i 0).val ∧ (i 0).val < win0_2.index t (0 : Fin 3) * 16 + 16; rw [e0, ht]; omega
  | ⟨1, _⟩ => show win0_2.index t (1 : Fin 3) * 512 ≤ (i 1).val ∧ (i 1).val < win0_2.index t (1 : Fin 3) * 512 + 512; rw [e1]; omega
  | ⟨2, _⟩ => show win0_2.index t (2 : Fin 3) * 256 ≤ (i 2).val ∧ (i 2).val < win0_2.index t (2 : Fin 3) * 256 + 256; rw [e2]; omega

/-- THE OUTPUT ARRAY after the run: the two staged arrays joined along the last axis. -/
theorem final (c : Dev nD) : (dats m 0 c).arrAt 2 cfg0.N = joined m c :=
  (dats m 0 c).arrAt_eq_of_cover 2 (joined m c) (fun t _ => flushed_eq m c t) cover

end Cert.KernelIdeal.Blocks

end
-- ==== Proof.LibRowGather.lean ====
/-
  Row gathers read at an index.

  `x[idx]` along axis 0 prints as a `stablehlo.gather` whose start indices are an [n × 1] column, whose operand axis 0 is
  collapsed and start-indexed, and whose other operand axes are offset axes taken whole. Result row `p` is operand row
  `clampRow idx p`: the start word read as a signed integer and clamped into the operand's rows. From that one reading:
  a row gather commutes with joining two operands along the last axis, and a row gather whose start words count
  `o, o + 1, …` is the contiguous slice of rows from `o`.
-/
import Idealize.ShloMosaic.Lib.ValueIdx
import Idealize.ShloMosaic.Lib.StableHlo.Predicate
import Idealize.ShloMosaic.Lib.StableHlo.Run
import Idealize.ShloMosaic.Lib.Pipeline.Value

noncomputable section

namespace RowGather

open Idealize.ShloMosaic Idealize.ShloMosaic.ValueIdx
open Idealize.ShloMosaic.StableHlo.Predicate (ixP)

/-- The operand row that position `p` of a start-index column names: the word read signed, clamped into the `N` rows
    (a negative word reads row 0, a word past the end reads the last row). -/
def clampRow {n w : Nat} (N : Nat) (hN : 0 < N) (idx : IVec ⟨2, ![n, 1]⟩ w) (p : Fin n) : Fin N :=
  ⟨min (idx (ixP p)).toInt.toNat (N - 1), by omega⟩

/-- The dimension numbers of a row gather of a rank-3 operand: axis 0 collapsed and start-indexed, axes 1 and 2 offset
    axes, the index vector along the column's unit axis. Each field is `rfl` on a printed record. -/
structure Rows3 {N B C n : Nat} (d : GatherDims ⟨3, ![N, B, C]⟩ ⟨2, ![n, 1]⟩ ⟨3, ![n, B, C]⟩) : Prop where
  off : d.offsetDims = [1, 2]
  coll : d.collapsedSliceDims = [0]
  ob : d.operandBatchingDims = []
  sim : d.startIndexMap = [0]
  ivd : d.indexVectorDim = 1

/-- The same for a rank-2 operand (a table of rows). -/
structure Rows2 {N C n : Nat} (d : GatherDims ⟨2, ![N, C]⟩ ⟨2, ![n, 1]⟩ ⟨2, ![n, C]⟩) : Prop where
  off : d.offsetDims = [1]
  coll : d.collapsedSliceDims = [0]
  ob : d.operandBatchingDims = []
  sim : d.startIndexMap = [0]
  ivd : d.indexVectorDim = 1

/-- A row gather of a rank-3 operand at `(p, q, r)` is the operand at `(clampRow idx p, q, r)`. -/
theorem gather_rows3_apply {α : Type} {N B C n w : Nat}
    (d : GatherDims ⟨3, ![N, B, C]⟩ ⟨2, ![n, 1]⟩ ⟨3, ![n, B, C]⟩) (hd : Rows3 d)
    (x : (⟨3, ![N, B, C]⟩ : Shape).Idx → α) (idx : IVec ⟨2, ![n, 1]⟩ w) (hN : 0 < N)
    (p : Fin n) (q : Fin B) (r : Fin C) :
    Host.gather d x idx (ix3 p q r) = x (ix3 (clampRow N hN idx p) q r) := by
  have hsl : d.sliceSizes 0 = 1 := d.slice_collapsed 0 (by rw [hd.coll]; exact List.mem_singleton.mpr rfl)
  obtain ⟨hoff, hcoll, hob, hsim, hivd⟩ := hd
  obtain ⟨od, cd, ob, sb, sm, iv, ss, wf⟩ := d
  dsimp only at hoff hcoll hob hsim hivd hsl
  subst hoff hcoll hob hsim hivd
  unfold Host.gather
  congr 1
  funext a
  apply Fin.ext
  match a with
  | ⟨0, h0⟩ =>
    -- the collapsed axis: the clamped start word, no batching or offset coordinate
    show GatherDims.start _ (ix3 p q r) idx ⟨0, h0⟩ + GatherDims.batchCoord _ (ix3 p q r) ⟨0, h0⟩
      + GatherDims.offCoord _ (ix3 p q r) ⟨0, h0⟩ = min (idx (ixP p)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    dsimp only
    have hm : (⟨0, h0⟩ : Fin (⟨3, ![N, B, C]⟩ : Shape).rank) ∈ [(0 : Fin (⟨3, ![N, B, C]⟩ : Shape).rank)] :=
      List.mem_singleton.mpr rfl
    rw [dif_pos hm]
    have hsi : GatherDims.siIdx (s := ⟨3, ![N, B, C]⟩) ⟨[1, 2], [0], [], sb, [0], 1, ss, wf⟩ (ix3 p q r)
        ⟨List.idxOf (⟨0, h0⟩ : Fin (⟨3, ![N, B, C]⟩ : Shape).rank) [0], List.idxOf_lt_length_iff.2 hm⟩ = ixP p := by
      funext b
      match b with
      | ⟨0, _⟩ => rfl
      | ⟨1, _⟩ => rfl
    rw [hsi]
    show min (idx (ixP p)).toInt.toNat (N - ss 0) + 0 + 0 = _
    rw [hsl]
    rfl
  | ⟨1, h1⟩ =>
    -- an offset axis: the result's own coordinate
    show GatherDims.start _ (ix3 p q r) idx ⟨1, h1⟩ + GatherDims.batchCoord _ (ix3 p q r) ⟨1, h1⟩
      + GatherDims.offCoord _ (ix3 p q r) ⟨1, h1⟩ = q.val
    rw [GatherDims.batchCoord_eq_zero _ _ _ List.not_mem_nil]
    unfold GatherDims.start
    dsimp only
    rw [dif_neg (by simp)]
    unfold GatherDims.offCoord
    rw [dif_pos ((GatherDims.mem_sKept _ _).mpr ⟨by simp, by simp⟩), Nat.zero_add]
    rfl
  | ⟨2, h2⟩ =>
    show GatherDims.start _ (ix3 p q r) idx ⟨2, h2⟩ + GatherDims.batchCoord _ (ix3 p q r) ⟨2, h2⟩
      + GatherDims.offCoord _ (ix3 p q r) ⟨2, h2⟩ = r.val
    rw [GatherDims.batchCoord_eq_zero _ _ _ List.not_mem_nil]
    unfold GatherDims.start
    dsimp only
    rw [dif_neg (by simp)]
    unfold GatherDims.offCoord
    rw [dif_pos ((GatherDims.mem_sKept _ _).mpr ⟨by simp, by simp⟩), Nat.zero_add]
    rfl

/-- A row gather of a table at `(p, r)` is the table at `(clampRow idx p, r)`. -/
theorem gather_rows2_apply {α : Type} {N C n w : Nat}
    (d : GatherDims ⟨2, ![N, C]⟩ ⟨2, ![n, 1]⟩ ⟨2, ![n, C]⟩) (hd : Rows2 d)
    (x : (⟨2, ![N, C]⟩ : Shape).Idx → α) (idx : IVec ⟨2, ![n, 1]⟩ w) (hN : 0 < N)
    (p : Fin n) (r : Fin C) :
    Host.gather d x idx (ix2 p r) = x (ix2 (clampRow N hN idx p) r) := by
  have hsl : d.sliceSizes 0 = 1 := d.slice_collapsed 0 (by rw [hd.coll]; exact List.mem_singleton.mpr rfl)
  obtain ⟨hoff, hcoll, hob, hsim, hivd⟩ := hd
  obtain ⟨od, cd, ob, sb, sm, iv, ss, wf⟩ := d
  dsimp only at hoff hcoll hob hsim hivd hsl
  subst hoff hcoll hob hsim hivd
  unfold Host.gather
  congr 1
  funext a
  apply Fin.ext
  match a with
  | ⟨0, h0⟩ =>
    show GatherDims.start _ (ix2 p r) idx ⟨0, h0⟩ + GatherDims.batchCoord _ (ix2 p r) ⟨0, h0⟩
      + GatherDims.offCoord _ (ix2 p r) ⟨0, h0⟩ = min (idx (ixP p)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    unfold GatherDims.start
    dsimp only
    have hm : (⟨0, h0⟩ : Fin (⟨2, ![N, C]⟩ : Shape).rank) ∈ [(0 : Fin (⟨2, ![N, C]⟩ : Shape).rank)] :=
      List.mem_singleton.mpr rfl
    rw [dif_pos hm]
    have hsi : GatherDims.siIdx (s := ⟨2, ![N, C]⟩) ⟨[1], [0], [], sb, [0], 1, ss, wf⟩ (ix2 p r)
        ⟨List.idxOf (⟨0, h0⟩ : Fin (⟨2, ![N, C]⟩ : Shape).rank) [0], List.idxOf_lt_length_iff.2 hm⟩ = ixP p := by
      funext b
      match b with
      | ⟨0, _⟩ => rfl
      | ⟨1, _⟩ => rfl
    rw [hsi]
    show min (idx (ixP p)).toInt.toNat (N - ss 0) + 0 + 0 = _
    rw [hsl]
    rfl
  | ⟨1, h1⟩ =>
    show GatherDims.start _ (ix2 p r) idx ⟨1, h1⟩ + GatherDims.batchCoord _ (ix2 p r) ⟨1, h1⟩
      + GatherDims.offCoord _ (ix2 p r) ⟨1, h1⟩ = r.val
    rw [GatherDims.batchCoord_eq_zero _ _ _ List.not_mem_nil]
    unfold GatherDims.start
    dsimp only
    rw [dif_neg (by simp)]
    unfold GatherDims.offCoord
    rw [dif_pos ((GatherDims.mem_sKept _ _).mpr ⟨by simp, by simp⟩), Nat.zero_add]
    rfl

/-- GATHER AFTER JOIN = JOIN AFTER GATHER. Rows picked out of two arrays joined along the last axis are the rows picked
    out of each, joined: the picked row depends on the start word only, and joining never mixes rows. -/
theorem gather_rows3_concat {α : Type} {N B C₁ C₂ C n w : Nat}
    (d : GatherDims ⟨3, ![N, B, C]⟩ ⟨2, ![n, 1]⟩ ⟨3, ![n, B, C]⟩) (hd : Rows3 d)
    (d₁ : GatherDims ⟨3, ![N, B, C₁]⟩ ⟨2, ![n, 1]⟩ ⟨3, ![n, B, C₁]⟩) (hd₁ : Rows3 d₁)
    (d₂ : GatherDims ⟨3, ![N, B, C₂]⟩ ⟨2, ![n, 1]⟩ ⟨3, ![n, B, C₂]⟩) (hd₂ : Rows3 d₂)
    (hs : Shape.Concatenates [(⟨3, ![N, B, C₁]⟩ : Shape), ⟨3, ![N, B, C₂]⟩] ⟨3, ![N, B, C]⟩ 2)
    (ht : Shape.Concatenates [(⟨3, ![n, B, C₁]⟩ : Shape), ⟨3, ![n, B, C₂]⟩] ⟨3, ![n, B, C]⟩ 2)
    (x : (⟨3, ![N, B, C₁]⟩ : Shape).Idx → α) (y : (⟨3, ![N, B, C₂]⟩ : Shape).Idx → α)
    (idx : IVec ⟨2, ![n, 1]⟩ w) (hN : 0 < N) :
    Host.gather d (concatenate ⟨3, ![N, B, C]⟩ 2 [⟨⟨3, ![N, B, C₁]⟩, x⟩, ⟨⟨3, ![N, B, C₂]⟩, y⟩] hs) idx
      = concatenate ⟨3, ![n, B, C]⟩ 2 [⟨⟨3, ![n, B, C₁]⟩, Host.gather d₁ x idx⟩, ⟨⟨3, ![n, B, C₂]⟩, Host.gather d₂ y idx⟩] ht := by
  funext j
  obtain ⟨p, q, r, rfl⟩ : ∃ p q r, j = ix3 p q r := ⟨j 0, j 1, j 2, eq_ix3 j⟩
  rw [gather_rows3_apply d hd _ idx hN p q r]
  have hC : C₁ + C₂ = C := by
    have := hs.2.2
    simpa using this
  have hrC : r.val < C := r.isLt
  by_cases hr : r.val < C₁
  · rw [concatenate_pair_apply_left (2 : Fin 3) x y hs (ix3 (clampRow N hN idx p) q r) rfl
        (ix3 (clampRow N hN idx p) q ⟨r.val, hr⟩)
        (fun b => match b with | ⟨0, _⟩ => rfl | ⟨1, _⟩ => rfl | ⟨2, _⟩ => rfl),
      concatenate_pair_apply_left (2 : Fin 3) (Host.gather d₁ x idx) (Host.gather d₂ y idx) ht (ix3 p q r) rfl
        (ix3 p q ⟨r.val, hr⟩)
        (fun b => match b with | ⟨0, _⟩ => rfl | ⟨1, _⟩ => rfl | ⟨2, _⟩ => rfl),
      gather_rows3_apply d₁ hd₁ x idx hN p q ⟨r.val, hr⟩]
  · have hr₂ : r.val - C₁ < C₂ := by omega
    rw [concatenate_pair_apply_right (2 : Fin 3) x y hs (ix3 (clampRow N hN idx p) q r) rfl rfl
        (ix3 (clampRow N hN idx p) q ⟨r.val - C₁, hr₂⟩)
        (fun b hb => match b, hb with | ⟨0, _⟩, _ => rfl | ⟨1, _⟩, _ => rfl | ⟨2, _⟩, hb => absurd rfl hb)
        (by show r.val - C₁ + C₁ = r.val; omega),
      concatenate_pair_apply_right (2 : Fin 3) (Host.gather d₁ x idx) (Host.gather d₂ y idx) ht (ix3 p q r) rfl rfl
        (ix3 p q ⟨r.val - C₁, hr₂⟩)
        (fun b hb => match b, hb with | ⟨0, _⟩, _ => rfl | ⟨1, _⟩, _ => rfl | ⟨2, _⟩, hb => absurd rfl hb)
        (by show r.val - C₁ + C₁ = r.val; omega),
      gather_rows3_apply d₂ hd₂ y idx hN p q ⟨r.val - C₁, hr₂⟩]

/-- ROWS COUNTED UP FROM AN OFFSET ARE A SLICE. When position `p`'s start word reads `o + p` and those rows exist, the
    row gather of a table is its contiguous band of `n` rows from row `o`. -/
theorem gather_rows2_eq_slice {α : Type} {N C n w : Nat}
    (d : GatherDims ⟨2, ![N, C]⟩ ⟨2, ![n, 1]⟩ ⟨2, ![n, C]⟩) (hd : Rows2 d)
    (x : (⟨2, ![N, C]⟩ : Shape).Idx → α) (idx : IVec ⟨2, ![n, 1]⟩ w) (o : Nat)
    (hsl : (⟨2, ![N, C]⟩ : Shape).Slices ![o, 0] ⟨2, ![n, C]⟩)
    (hidx : ∀ p : Fin n, (idx (ixP p)).toInt.toNat = o + p.val) (hon : o + n ≤ N) :
    Host.gather d x idx = extractStridedSlice ⟨2, ![n, C]⟩ ![o, 0] x hsl := by
  funext j
  obtain ⟨p, r, rfl⟩ : ∃ p r, j = ix2 p r := ⟨j 0, j 1, eq_ix2 j⟩
  have hp : p.val < n := p.isLt
  have hN : 0 < N := by omega
  rw [gather_rows2_apply d hd x idx hN p r,
    extractStridedSlice_apply ![o, 0] x hsl (ix2 p r) (ix2 (clampRow N hN idx p) r)
      (fun a => match a with
        | ⟨0, _⟩ => by
          show min (idx (ixP p)).toInt.toNat (N - 1) = o + p.val
          rw [hidx p]; omega
        | ⟨1, _⟩ => by show r.val = 0 + r.val; omega)]

end RowGather

end
-- ==== Proof.RefValue.lean ====
/-
  The reference's first result in the kernel's form.

  The reference joins `matrix` (flattened) and `emb[core_terms] + emb[pos_ids]` along the last axis and THEN picks the rows
  the start column names; the kernel picks the rows of each and then joins. A row gather commutes with a join along
  another axis, so the two agree once the position rows agree: `pos_ids` counts `50000, 50001, …, 50511`, all inside the
  table's 50512 rows and none negative, so the gather `emb[pos_ids]` is the contiguous slice `emb[50000 : 50512]`.
-/
import proofs.«423332_j65214783422482_3_alg».proof.Proof.Gen.ReferenceIdeal
import proofs.«423332_j65214783422482_3_alg».proof.Proof.LibRowGather

noncomputable section

namespace Cert.ReferenceIdeal.RefValue

open Cert.ReferenceIdeal Cert.ReferenceIdeal.Gen Idealize.ShloMosaic Idealize.ShloMosaic.ValueIdx
open Idealize.ShloMosaic.StableHlo.Predicate (ixP)

variable {F : FTy → Type} [FloatOps F]

/-- The position ids `50000 + p`. -/
def posIds : IVec S512 32 :=
  addi (broadcastInDim S512 ![] bcast_S_S512 (constantI S_ 32 50000#32)) (iotaInDim S512 32 0)

/-- The position ids as a column of table rows, a negative id wrapped by the 50512 rows (none is). -/
def posCol : IVec S512x1 32 :=
  broadcastInDim S512x1 ![0] bcast_S512_S512x1_0
    (select (cmpi .slt posIds (broadcastInDim S512 ![] bcast_S_S512 (constantI S_ 32 0#32)))
      (addi posIds (broadcastInDim S512 ![] bcast_S_S512 (constantI S_ 32 50512#32))) posIds)

/-- Position `p`'s id is the word `50000 + p`. -/
theorem posIds_apply (p : Fin 512) : posIds (Shape.Idx.ofFin p) = BitVec.ofNat 32 (50000 + p.val) := by
  show IntOp.addi (50000#32) (BitVec.ofNat 32 p.val) = _
  show 50000#32 + BitVec.ofNat 32 p.val = _
  rw [BitVec.ofNat_add]

/-- Position `p`'s start word reads, signed, `50000 + p`: it is not negative, so it is not wrapped. -/
theorem posCol_apply (p : Fin 512) : (posCol (ixP p)).toInt.toNat = 50000 + p.val := by
  have hp : p.val < 512 := p.isLt
  unfold posCol
  rw [StableHlo.Predicate.bcast_col1]
  show (Scalar.select (IntOp.cmpi .slt (posIds (Shape.Idx.ofFin p)) (0#32))
    (IntOp.addi (posIds (Shape.Idx.ofFin p)) (50512#32)) (posIds (Shape.Idx.ofFin p))).toInt.toNat = _
  rw [posIds_apply]
  have hneg : ¬ (IntOp.cmpi .slt (BitVec.ofNat 32 (50000 + p.val)) (0#32) = (1 : BitVec 1)) := by
    intro h
    have := (StableHlo.Predicate.slt_ofNat_iff (50000 + p.val) 0 (by omega) (by omega)).mp h
    omega
  unfold Scalar.select
  rw [if_neg hneg, StableHlo.Predicate.toInt_ofNat_small _ (by omega)]
  exact Int.toNat_natCast _

/-- `emb[pos_ids]` is the contiguous slice `emb[50000 : 50512]`. -/
theorem posRows_eq_slice (emb : FVec F S50512x128 .f32) (hsl : S50512x128.Slices ![50000, 0] S512x128) :
    Host.gather gather_S50512x128_S512x1_S512x128_1_0_n_n_0_1_1128 emb posCol
      = extractStridedSlice S512x128 ![50000, 0] emb hsl :=
  RowGather.gather_rows2_eq_slice _ ⟨rfl, rfl, rfl, rfl, rfl⟩ emb posCol 50000 hsl posCol_apply (by decide)

/-! ## The reference's results as terms of the argument arrays -/

/-- Positions `0 … 255` ordered by descending length, ties in position order. -/
def order (len : IVec S256 32) : IVec S256 32 :=
  (Host.sort2 S256 0 comparator_i32_i32_d0 (negi len) (iotaInDim S256 32 0)).2

/-- The order as a column of row indices, a negative word wrapped by the 256 rows. -/
def startCol (len : IVec S256 32) : IVec S256x1 32 :=
  broadcastInDim S256x1 ![0] bcast_S256_S256x1_0
    (select (cmpi .slt (order len) (broadcastInDim S256 ![] bcast_S_S256 (constantI S_ 32 0#32)))
      (addi (order len) (broadcastInDim S256 ![] bcast_S_S256 (constantI S_ 32 256#32))) (order len))

/-- The token ids, flattened to [256, 512], as a column of table rows, a negative id wrapped by the 50512 rows. -/
def tokCol (ct : IVec S16x16x512 32) : IVec S256x512x1 32 :=
  broadcastInDim S256x512x1 ![0, 1] bcast_S256x512_S256x512x1_0_1
    (select (cmpi .slt (shapeCast _ ct shapeCasts_S16x16x512_S256x512) (broadcastInDim S256x512 ![] bcast_S_S256x512 (constantI S_ 32 0#32)))
      (addi (shapeCast _ ct shapeCasts_S16x16x512_S256x512) (broadcastInDim S256x512 ![] bcast_S_S256x512 (constantI S_ 32 50512#32)))
      (shapeCast _ ct shapeCasts_S16x16x512_S256x512))

/-- Token embedding plus position embedding, [256, 512, 128]: `emb[ct] + emb[pos_ids]` broadcast over the rows. -/
def tokVec (emb : FVec F S50512x128 .f32) (ct : IVec S16x16x512 32) : FVec F S256x512x128 .f32 :=
  addf (Host.gather gather_S50512x128_S256x512x1_S256x512x128_2_0_n_n_0_2_1128 emb (tokCol ct))
    (broadcastInDim S256x512x128 ![0, 1, 2] bcast_S1x512x128_S256x512x128_0_1_2
      (broadcastInDim S1x512x128 ![1, 2] bcast_S512x128_S1x512x128_1_2
        (Host.gather gather_S50512x128_S512x1_S512x128_1_0_n_n_0_1_1128 emb posCol)))

/-- The reference's first result: the joined arrays' rows at the start column. -/
def joinedRows (mat : FVec F S16x16x512x128 .f32) (len : IVec S256 32) (ct : IVec S16x16x512 32)
    (emb : FVec F S50512x128 .f32) : FVec F S256x512x256 .f32 :=
  Host.gather gather_S256x512x256_S256x1_S256x512x256_12_0_n_n_0_1_1512256
    (concatenate S256x512x256 2 [⟨S256x512x128, shapeCast _ mat shapeCasts_S16x16x512x128_S256x512x128⟩,
      ⟨S256x512x128, tokVec emb ct⟩] concatenates_S256x512x128_S256x512x128_S256x512x256_d2)
    (startCol len)

end Cert.ReferenceIdeal.RefValue

end
-- ==== Proof.Bridge.lean ====
/-
  The two programs' results are one function of the arguments.

  Kernel: the output array is the join of `matrix`'s rows and the token-plus-position rows, each picked by the start
  column. Reference: the rows, picked by the same start column, of the join of the two. A row gather commutes with a join
  along the last axis, the position rows `emb[50000 + p]` are the slice `emb[50000 : 50512]`, and everything else in the two
  terms is the same operation on the same argument.
-/
import proofs.«423332_j65214783422482_3_alg».proof.Proof.KernelHost
import proofs.«423332_j65214783422482_3_alg».proof.Proof.KernelBlocks
import proofs.«423332_j65214783422482_3_alg».proof.Proof.RefValue

noncomputable section

namespace Cert.Proof.Bridge

open Idealize.ShloMosaic Idealize.ShloMosaic.TcCoe Idealize.SL.Sem

variable {F : FTy → Type} [FloatOps F]

/-- The form both first results take: `matrix`'s rows and the token-plus-position rows, each picked by the start column,
    joined along the last axis (spelt over the kernel program's records). -/
def rowsJoined (mat : FVec F Cert.KernelIdeal.S16x16x512x128 .f32) (len : IVec Cert.KernelIdeal.S256 32) (ct : IVec Cert.KernelIdeal.S16x16x512 32)
    (emb : FVec F Cert.KernelIdeal.S50512x128 .f32) : FVec F Cert.KernelIdeal.S256x512x256 .f32 :=
  concatenate Cert.KernelIdeal.S256x512x256 2
    [⟨Cert.KernelIdeal.S256x512x128, Host.gather Cert.KernelIdeal.gather_S256x512x128_S256x1_S256x512x128_12_0_n_n_0_1_1512128
        (shapeCast _ mat Cert.KernelIdeal.Facts₀.shapeCasts_S16x16x512x128_S256x512x128) (Cert.KernelIdeal.HostValue.startCol len)⟩,
      ⟨Cert.KernelIdeal.S256x512x128, Host.gather Cert.KernelIdeal.gather_S256x512x128_S256x1_S256x512x128_12_0_n_n_0_1_1512128
        (Cert.KernelIdeal.HostValue.tokVec emb ct) (Cert.KernelIdeal.HostValue.startCol len)⟩]
    Cert.KernelIdeal.Blocks.joinArr

/-- The two programs spell the start column alike. -/
theorem startCol_eq (len : IVec Cert.KernelIdeal.S256 32) : Cert.ReferenceIdeal.RefValue.startCol len = Cert.KernelIdeal.HostValue.startCol len := rfl

/-- Token plus position rows: the reference's gathered position rows are the kernel's slice. -/
theorem tokVec_eq (emb : FVec F Cert.KernelIdeal.S50512x128 .f32) (ct : IVec Cert.KernelIdeal.S16x16x512 32) :
    Cert.ReferenceIdeal.RefValue.tokVec emb ct = Cert.KernelIdeal.HostValue.tokVec emb ct := by
  unfold Cert.ReferenceIdeal.RefValue.tokVec
  rw [Cert.ReferenceIdeal.RefValue.posRows_eq_slice emb Cert.KernelIdeal.Facts₀.slices_S50512x128_S512x128_50000_0]
  rfl

/-- THE REFERENCE: rows of the join are the join of the rows. -/
theorem ref_rows (mat : FVec F Cert.KernelIdeal.S16x16x512x128 .f32) (len : IVec Cert.KernelIdeal.S256 32) (ct : IVec Cert.KernelIdeal.S16x16x512 32)
    (emb : FVec F Cert.KernelIdeal.S50512x128 .f32) :
    Cert.ReferenceIdeal.RefValue.joinedRows mat len ct emb = rowsJoined mat len ct emb := by
  unfold Cert.ReferenceIdeal.RefValue.joinedRows rowsJoined
  refine (RowGather.gather_rows3_concat (N := 256) (B := 512) (C₁ := 128) (C₂ := 128) (C := 256) (n := 256)
    Cert.ReferenceIdeal.gather_S256x512x256_S256x1_S256x512x256_12_0_n_n_0_1_1512256 ⟨rfl, rfl, rfl, rfl, rfl⟩
    Cert.KernelIdeal.gather_S256x512x128_S256x1_S256x512x128_12_0_n_n_0_1_1512128 ⟨rfl, rfl, rfl, rfl, rfl⟩
    Cert.KernelIdeal.gather_S256x512x128_S256x1_S256x512x128_12_0_n_n_0_1_1512128 ⟨rfl, rfl, rfl, rfl, rfl⟩
    Cert.ReferenceIdeal.Facts₀.concatenates_S256x512x128_S256x512x128_S256x512x256_d2 Cert.KernelIdeal.Blocks.joinArr
    _ _ (Cert.ReferenceIdeal.RefValue.startCol len) (by decide)).trans ?_
  rw [startCol_eq, tokVec_eq]

/-- THE KERNEL: the output array after the run. -/
theorem kernel_rows (m : (ℓ : Loc Cert.KernelIdeal.nD Cert.KernelIdeal.τ Cert.KernelIdeal.sig) → Buf (Elt F) ℓ) (c : Dev Cert.KernelIdeal.nD) :
    (Cert.KernelIdeal.Gen.dats m 0 c).arrAt 2 Cert.KernelIdeal.cfg0.N
      = rowsJoined (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3)) := by
  rw [Cert.KernelIdeal.Blocks.final m c]
  unfold rowsJoined
  show concatenate Cert.KernelIdeal.S256x512x256 2 [⟨Cert.KernelIdeal.S256x512x128, (Cert.KernelIdeal.Gen.V m c Cert.KernelIdeal.main_v29 : Cert.KernelIdeal.S256x512x128.Idx → Elt F .f32)⟩,
    ⟨Cert.KernelIdeal.S256x512x128, (Cert.KernelIdeal.Gen.V m c Cert.KernelIdeal.main_v36 : Cert.KernelIdeal.S256x512x128.Idx → Elt F .f32)⟩] Cert.KernelIdeal.Blocks.joinArr = _
  rw [Cert.KernelIdeal.HostValue.V_main_v29 m c, Cert.KernelIdeal.HostValue.V_main_v36 m c]

end Cert.Proof.Bridge

end
-- ==== Proof.lean ====
/-
  The certificate: a concat-after-row-sort kernel against its jnp reference, over the extended reals.

  Both programs flatten `matrix` to [256, 512, 128], build `core_term_vec = emb[core_terms] + (position rows of emb)`,
  sort the 256 lengths descending (a stable argsort of their negations) and return three results: the two arrays joined
  along the last axis with their rows in sorted order, the sorted lengths, and the inverse permutation.

  They differ in two places. The kernel takes the position rows as the static slice `emb[50000 : 50512]`, the reference
  gathers `emb[50000 + p]`: the same rows, since every id is inside the table and none is negative. And the kernel picks
  the sorted rows of each array first and joins them in its one pallas_call (16 grid points, each copying a [16, 512, 128]
  block of each input into the two lane halves of a [16, 512, 256] output block), where the reference joins first and picks
  rows afterwards: a row gather commutes with a join along another axis. No arithmetic law on the extended reals is
  involved (the one addition is the same on both sides), so the finiteness precondition is never opened. The two integer
  results are the same operations on the same argument in both programs.

  Frames: the kernel's two are the generated class-A frames; the reference's is its generated run with the results dropped.
  The idealization rewrote nothing, so `preserves` is `True`.
-/
import proofs.«423332_j65214783422482_3_alg».proof.Defs
import proofs.«423332_j65214783422482_3_alg».proof.Proof.Gen.Kernel
import proofs.«423332_j65214783422482_3_alg».proof.Proof.Gen.Kernel.Skeleton
import proofs.«423332_j65214783422482_3_alg».proof.Proof.Gen.Kernel.Launch
import proofs.«423332_j65214783422482_3_alg».proof.Proof.Gen.Kernel.Points
import proofs.«423332_j65214783422482_3_alg».proof.Proof.Gen.Kernel.Frame
import proofs.«423332_j65214783422482_3_alg».proof.Proof.Gen.KernelIdeal
import proofs.«423332_j65214783422482_3_alg».proof.Proof.Gen.KernelIdeal.Skeleton
import proofs.«423332_j65214783422482_3_alg».proof.Proof.Gen.KernelIdeal.Launch
import proofs.«423332_j65214783422482_3_alg».proof.Proof.Gen.KernelIdeal.Points
import proofs.«423332_j65214783422482_3_alg».proof.Proof.Gen.KernelIdeal.Frame
import proofs.«423332_j65214783422482_3_alg».proof.Proof.Gen.ReferenceIdeal
import proofs.«423332_j65214783422482_3_alg».proof.Proof.Gen.Pre_finite_inputs
import proofs.«423332_j65214783422482_3_alg».proof.Proof.Gen.KernelIdeal.Value
import proofs.«423332_j65214783422482_3_alg».proof.Proof.Gen.ReferenceIdeal.Run
import proofs.«423332_j65214783422482_3_alg».proof.Proof.Bridge
import Idealize.ShloMosaic.Adequacy
import Idealize.ShloMosaic.Init

noncomputable section

namespace Cert.Proof

open Idealize.ShloMosaic Idealize.ShloMosaic.TcCoe Idealize.SL.Sem

/-! ## The frames -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-! ## The kernel's run with all three results named -/

/-- The idealized kernel's run: the output array at the joined sorted rows, the two integer results at what the host
    operations before the region left in their buffers (no window stages them, and the region leaves every other buffer
    as it found it), the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c : Thread Cert.KernelIdeal.nD Cert.KernelIdeal.τ).loc Cert.KernelIdeal.main_v37)
          = Bridge.rowsJoined (F := Ideal) (m ((c : Thread Cert.KernelIdeal.nD Cert.KernelIdeal.τ).loc Cert.KernelIdeal.main_arg0))
              (m ((c : Thread Cert.KernelIdeal.nD Cert.KernelIdeal.τ).loc Cert.KernelIdeal.main_arg1))
              (m ((c : Thread Cert.KernelIdeal.nD Cert.KernelIdeal.τ).loc Cert.KernelIdeal.main_arg2))
              (m ((c : Thread Cert.KernelIdeal.nD Cert.KernelIdeal.τ).loc Cert.KernelIdeal.main_arg3))
        ∧ r.2.mem ((c : Thread Cert.KernelIdeal.nD Cert.KernelIdeal.τ).loc Cert.KernelIdeal.main_v11)
          = Host.gather Cert.KernelIdeal.gather_S256_S256x1_S256_n_0_n_n_0_1_1
              (m ((c : Thread Cert.KernelIdeal.nD Cert.KernelIdeal.τ).loc Cert.KernelIdeal.main_arg1))
              (Cert.KernelIdeal.HostValue.startCol (m ((c : Thread Cert.KernelIdeal.nD Cert.KernelIdeal.τ).loc Cert.KernelIdeal.main_arg1)))
        ∧ r.2.mem ((c : Thread Cert.KernelIdeal.nD Cert.KernelIdeal.τ).loc Cert.KernelIdeal.main_v4)
          = (Host.sort2 Cert.KernelIdeal.S256 0 Cert.KernelIdeal.comparator_i32_i32_d0
              (Cert.KernelIdeal.HostValue.order (m ((c : Thread Cert.KernelIdeal.nD Cert.KernelIdeal.τ).loc Cert.KernelIdeal.main_arg1)))
              (iotaInDim Cert.KernelIdeal.S256 32 0)).2
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3) :=
  (θ_run Cert.KernelIdeal.defs _ _).mono (fun r h c =>
    ⟨(Cert.KernelIdeal.Value.post2 m r h c).trans (Bridge.kernel_rows m c),
      ((h c).2 Cert.KernelIdeal.main_v11 (Pipeline.mem_restRefs_of Cert.KernelIdeal.main_v11 (by decide) (by decide))).trans
        (Cert.KernelIdeal.HostValue.V_main_v11 m c),
      ((h c).2 Cert.KernelIdeal.main_v4 (Pipeline.mem_restRefs_of Cert.KernelIdeal.main_v4 (by decide) (by decide))).trans
        (Cert.KernelIdeal.HostValue.V_main_v4 m c),
      Cert.KernelIdeal.Value.kept_main_arg0 m r h c,
      Cert.KernelIdeal.Value.kept_main_arg1 m r h c,
      Cert.KernelIdeal.Value.kept_main_arg2 m r h c,
      Cert.KernelIdeal.Value.kept_main_arg3 m r h c⟩)
    (Cert.KernelIdeal.Gen.run_main m ρ)

/-! ## The claims -/

/-- The idealization rewrote no operation. -/
theorem preserves : Cert.preserves_Kernel_KernelIdeal := trivial

/-- At `Ideal`, from memories agreeing on the arguments, both programs end with the same three results: the joined sorted
    rows (the reference's rows-of-the-join put in the kernel's join-of-the-rows form), the sorted lengths and the inverse
    permutation (the same operations on the same argument). -/
theorem algebraic : Cert.algebraic_KernelIdeal_ReferenceIdeal := by
  intro m ρ m' ρ' _ hagree
  refine ⟨_, _, _, kernel_run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2]
    exact Bridge.ref_rows (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
  · rw [(hagree c).2.1]
    rfl
  · rw [(hagree c).2.1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
